-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S256x8192 : Shape := ⟨2, ![256, 8192]⟩
abbrev S1x1 : Shape := ⟨2, ![1, 1]⟩
abbrev S512x256 : Shape := ⟨2, ![512, 256]⟩
abbrev S256x512 : Shape := ⟨2, ![256, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x8192, .f32⟩
  | .hbm, ⟨3, _⟩ => ⟨S256x8192, .f32⟩
  | .hbm, ⟨4, _⟩ => ⟨S1x1, .f32⟩
  | .hbm, ⟨5, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v80 : BitVec 1 := Scalar.cmpi .eq arg0 c15_i32
  let arg1 : BitVec 32 := BitVec.ofNat 32 (i 1).val
  let c15_i32_35 : BitVec 32 := 15#32
  let v81 : BitVec 1 := Scalar.cmpi .eq arg1 c15_i32_35
  let v82 : BitVec 1 := Scalar.andi v80 v81
  let v83 : BitVec 32 := Scalar.extui v82
  let c0_i32_36 : BitVec 32 := 0#32
  let v84 : BitVec 1 := Scalar.cmpi .ne v83 c0_i32_36
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  transposes_S8192x256_S256x8192_1_0 : S8192x256.Transposes [1, 0] S256x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S512x256_S512 : S512x256.Reduces [1] S512
  shapeCasts_S512_S512x1 : S512.ShapeCasts S512x1
  reduces_S256x512_S512 : S256x512.Reduces [0] S512
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x8192.size a
  hwx0_2 : ∀ i : grid0.Coords, EltTy.bits .f32 = 32 ∨ (Rect.block (s := S256x8192) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x8192.size a
  hwx0_3 : ∀ i : grid0.Coords, EltTy.bits .f32 = 32 ∨ (Rect.block (s := S256x8192) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S256x8192, .f32⟩
  | .hbm, ⟨31, _⟩ => ⟨S8192x8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S256x8192, .f32⟩
  | .hbm, ⟨53, _⟩ => ⟨S8192x8192, .f32⟩
  | .hbm, ⟨54, _⟩ => ⟨S8192x1, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_11 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Consts.lean ====
/-
  The float literals the two programs spell, as the reals their bit patterns denote: `0`, `2`, `½`, `2⁻²⁶`, `2²⁶`,
  and the positive infinity the precondition compares against.
-/
import Idealize.ShloMosaic.PureOps.Ideal

noncomputable section

namespace Cert.Mmd.Consts

open Idealize.ShloMosaic

theorem ofBits_zero : Ideal.ofBits .f32 0x00000000#32 = 0 := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_pairs : Ideal.ofBits .f32 0x32800000#32 = ((1 / 67108864 : ℝ) : EReal) := by
  simp [Ideal.ofBits, Ideal.ieee, -EReal.coe_mul]; norm_num

theorem ofBits_pairs : Ideal.ofBits .f32 0x4C800000#32 = ((67108864 : ℝ) : EReal) := by
  simp [Ideal.ofBits, Ideal.ieee, -EReal.coe_mul]; norm_num

theorem ofBits_inf : Ideal.ofBits .f32 0x7F800000#32 = ⊤ := by
  simp [Ideal.ofBits, Ideal.ieee]

end Cert.Mmd.Consts

end
-- ==== Proof.Finite.lean ====
/-
  The precondition, read back: when every entry of both inputs is below positive infinity in absolute value, every entry
  is a real number.
-/
import proofs.«170442_j77438260347128_1_alg».proof.Pre_finite_inputs
import proofs.«170442_j77438260347128_1_alg».proof.Proof.Consts
import Idealize.ShloMosaic.PureOps.Ideal.Laws
import Idealize.ShloMosaic.Lib.ValueIdx
import Idealize.ShloMosaic.Lib.ReduceAll

noncomputable section

namespace Cert.Mmd

open Idealize.ShloMosaic Idealize.ShloMosaic.ValueIdx

/-- The rank-0 shape has exactly one index, so a reduction over every axis has a single result. -/
instance subsingleton_scalar_idx : Subsingleton Cert.Pre_finite_inputs.S_.Idx :=
  ⟨fun _ _ => funext fun d => d.elim0⟩

/-- An extended real whose absolute value `max x (-x)` compares strictly below `+∞` is a real number: `⊤` has absolute
value `⊤`, and `⊥` has absolute value `max ⊥ ⊤ = ⊤`, so neither of the two infinities passes the comparison. -/
theorem real_of_abs_lt_inf (x : EReal)
    (h : Ideal.cmp .olt (max x (-x)) (Ideal.ofBits .f32 0x7F800000#32) = 1#1) :
    x = ((x.toReal : ℝ) : EReal) := by
  rw [Consts.ofBits_inf] at h
  -- the comparison word is 1 exactly when the strict order holds
  have hlt : max x (-x) < ⊤ := by
    by_contra hn
    simp [Ideal.cmp, hn] at h
  have h1 : x ≠ ⊤ := by
    rintro rfl
    simp at hlt
  have h2 : x ≠ ⊥ := by
    rintro rfl
    simp at hlt
  exact (EReal.coe_toReal h1 h2).symm

/-- Under the precondition both inputs are arrays of reals. -/
theorem real_of_pre [Cert.Pre_finite_inputs.Facts] (x0 x1 : FVec Ideal Cert.Pre_finite_inputs.S8192x256 .f32)
    (h : Cert.Pre_finite_inputs.fn (F := Ideal) x0 x1 = fun _ => 1#1) :
    ∃ S T : Fin 8192 → Fin 256 → ℝ,
      (∀ (i : Fin 8192) (d : Fin 256), x0 (ix2 i d) = ((S i d : ℝ) : EReal))
      ∧ (∀ (i : Fin 8192) (d : Fin 256), x1 (ix2 i d) = ((T i d : ℝ) : EReal)) := by
  -- the predicate's single result word is 1
  have h' := congrFun h ValueIdx.ix0
  dsimp only [Cert.Pre_finite_inputs.fn] at h'
  -- a conjunction of two one-bit words is 1 only when both are
  obtain ⟨ha, hb⟩ := IntOp.andi_eq_one.1 h'
  -- each conjunct is an `and` over all entries of a comparison array, so every entry of that array is 1
  have hA := Host.reduce_andi_all _ _ _ _ _ ha
  have hB := Host.reduce_andi_all _ _ _ _ _ hb
  -- an entry of the comparison array is `|x| < +∞` at that index; the real witness is the entry's real part
  exact ⟨fun i d => (x0 (ix2 i d)).toReal, fun i d => (x1 (ix2 i d)).toReal,
    fun i d => real_of_abs_lt_inf _ (hA (ix2 i d)), fun i d => real_of_abs_lt_inf _ (hB (ix2 i d))⟩

end Cert.Mmd

end
-- ==== Proof.Spec.lean ====
/-
  The maximum-mean-discrepancy loss with a Gaussian kernel, over the reals.

  For two samples `S, T` of 8192 points in dimension 256, with squared norms `|x|²` and inner products `x·y`,
  the Gaussian kernel entry in expanded form is `g(x, y) = exp (-(|x|² + |y|² - 2 x·y) / 2)`, and the loss is the mean
  over all pairs `(i, j)` of `g(Sᵢ, Sⱼ) + g(Tᵢ, Tⱼ) - 2 g(Sᵢ, Tⱼ)`.

  The same number is reached tile by tile: cut the 8192 × 8192 pairs into a 16 × 16 grid of 512 × 512 tiles, sum each of
  the three kernel matrices over a tile, combine the three tile sums, and add the tiles up in row-major order.
  Finite sums of reals may be regrouped freely, which is all the equality needs.
-/
import Idealize.ShloMosaic.PureOps.Ideal
import Mathlib.Algebra.BigOperators.Fin
import Mathlib.Logic.Equiv.Fin.Basic

noncomputable section

open scoped BigOperators

namespace Cert.Mmd

/-- Row `r` of tile `a` is row `512 a + r` of the whole sample. -/
def tileRow (a : Fin 16) (r : Fin 512) : Fin 8192 := ⟨512 * a.val + r.val, by omega⟩

/-- The squared norm of point `i`. -/
def sqn (X : Fin 8192 → Fin 256 → ℝ) (i : Fin 8192) : ℝ := ∑ d : Fin 256, X i d * X i d

/-- The inner product of point `i` of `X` with point `j` of `Y`. -/
def dotp (X Y : Fin 8192 → Fin 256 → ℝ) (i j : Fin 8192) : ℝ := ∑ d : Fin 256, X i d * Y j d

/-- The Gaussian kernel entry, the squared distance expanded: `exp ((0 - (|x|² + |y|² - 2 x·y)) · ½)`. -/
def gauss (X Y : Fin 8192 → Fin 256 → ℝ) (i j : Fin 8192) : ℝ :=
  Real.exp ((0 - ((sqn X i + sqn Y j) - 2 * dotp X Y i j)) * (1 / 2))

/-- One kernel matrix summed over tile `(a, b)`: rows first, then the columns of each row. -/
def pairSum (X Y : Fin 8192 → Fin 256 → ℝ) (a b : Fin 16) : ℝ :=
  ∑ r : Fin 512, ∑ c : Fin 512, gauss X Y (tileRow a r) (tileRow b c)

/-- Tile `(a, b)`'s share of the loss before the mean is taken. -/
def part (S T : Fin 8192 → Fin 256 → ℝ) (a b : Fin 16) : ℝ :=
  (pairSum S S a b + pairSum T T a b) - 2 * pairSum S T a b

/-- The tile row and tile column of the `n`-th tile in row-major order. -/
def tileA (n : ℕ) : Fin 16 := ⟨n / 16 % 16, Nat.mod_lt _ (by norm_num)⟩
def tileB (n : ℕ) : Fin 16 := ⟨n % 16, Nat.mod_lt _ (by norm_num)⟩

/-- The running total after tiles `0 … n`. -/
def acc (S T : Fin 8192 → Fin 256 → ℝ) (n : ℕ) : ℝ :=
  ∑ t ∈ Finset.range (n + 1), part S T (tileA t) (tileB t)

/-- The loss: the sum over all pairs, from zero, times `2⁻²⁶` (there are `8192² = 2²⁶` pairs). -/
def mmd (S T : Fin 8192 → Fin 256 → ℝ) : ℝ :=
  (0 + ∑ i : Fin 8192, ∑ j : Fin 8192, ((gauss S S i j + gauss T T i j) - 2 * gauss S T i j)) * (1 / 67108864)

variable (S T : Fin 8192 → Fin 256 → ℝ)

theorem acc_zero : acc S T 0 = 0 + part S T (tileA 0) (tileB 0) := by
  simp [acc]

theorem acc_succ (n : ℕ) : acc S T (n + 1) = acc S T n + part S T (tileA (n + 1)) (tileB (n + 1)) := by
  unfold acc; rw [Finset.sum_range_succ]

/-- Cutting the 8192 rows into 16 blocks of 512 loses and repeats nothing: `(a, r) ↦ 512 a + r` is a bijection of
`Fin 16 × Fin 512` with `Fin 8192`, so a sum over blocks and rows within a block is the sum over all rows. -/
theorem sum_tileRow (f : Fin 8192 → ℝ) :
    ∑ a : Fin 16, ∑ r : Fin 512, f (tileRow a r) = ∑ i : Fin 8192, f i := by
  have h := Equiv.sum_comp (finProdFinEquiv : Fin 16 × Fin 512 ≃ Fin (16 * 512))
    (fun i : Fin (16 * 512) => f i)
  rw [Fintype.sum_prod_type] at h
  have e : ∀ (a : Fin 16) (r : Fin 512),
      (finProdFinEquiv (a, r) : Fin (16 * 512)) = tileRow a r := by
    intro a r
    apply Fin.ext
    simp only [finProdFinEquiv_apply_val, tileRow]
    omega
  simp only [e] at h
  exact h

/-- The row-major walk `t ↦ (t / 16, t % 16)` over `t < 256` visits every tile of the 16 × 16 grid exactly once. -/
theorem sum_tiles (h : Fin 16 → Fin 16 → ℝ) :
    ∑ t ∈ Finset.range 256, h (tileA t) (tileB t) = ∑ a : Fin 16, ∑ b : Fin 16, h a b := by
  rw [Finset.sum_range (fun t => h (tileA t) (tileB t))]
  have k := Equiv.sum_comp (finProdFinEquiv : Fin 16 × Fin 16 ≃ Fin (16 * 16))
    (fun t : Fin (16 * 16) => h (tileA t.val) (tileB t.val))
  rw [Fintype.sum_prod_type] at k
  have eA : ∀ (a b : Fin 16), tileA (finProdFinEquiv (a, b) : Fin (16 * 16)).val = a := by
    intro a b
    apply Fin.ext
    simp only [finProdFinEquiv_apply_val, tileA]
    omega
  have eB : ∀ (a b : Fin 16), tileB (finProdFinEquiv (a, b) : Fin (16 * 16)).val = b := by
    intro a b
    apply Fin.ext
    simp only [finProdFinEquiv_apply_val, tileB]
    omega
  simp only [eA, eB] at k
  exact k.symm

/-- Summing any function of a pair of rows tile by tile, each tile rows-then-columns, is summing it over all pairs:
the two middle sums (tile column, row within the tile) commute, and then each axis is re-indexed on its own. -/
theorem sum_tile_pairs (G : Fin 8192 → Fin 8192 → ℝ) :
    ∑ a : Fin 16, ∑ b : Fin 16, ∑ r : Fin 512, ∑ c : Fin 512, G (tileRow a r) (tileRow b c)
      = ∑ i : Fin 8192, ∑ j : Fin 8192, G i j := by
  rw [← sum_tileRow (fun i => ∑ j : Fin 8192, G i j)]
  refine Finset.sum_congr rfl (fun a _ => ?_)
  rw [Finset.sum_comm]
  refine Finset.sum_congr rfl (fun r _ => ?_)
  exact sum_tileRow (fun j => G (tileRow a r) j)

/-- A tile's share is one sum over the tile of the combined entry: the three tile sums combine termwise. -/
theorem part_eq (a b : Fin 16) :
    part S T a b = ∑ r : Fin 512, ∑ c : Fin 512,
      ((gauss S S (tileRow a r) (tileRow b c) + gauss T T (tileRow a r) (tileRow b c))
        - 2 * gauss S T (tileRow a r) (tileRow b c)) := by
  unfold part pairSum
  simp only [Finset.sum_add_distrib, Finset.sum_sub_distrib, Finset.mul_sum]

/-- The running total after the last tile, scaled, is the loss. -/
theorem acc_last : acc S T 255 * (1 / 67108864) = mmd S T := by
  have key : ∑ a : Fin 16, ∑ b : Fin 16, part S T a b
      = ∑ i : Fin 8192, ∑ j : Fin 8192, ((gauss S S i j + gauss T T i j) - 2 * gauss S T i j) := by
    simp only [part_eq]
    exact sum_tile_pairs (fun i j => (gauss S S i j + gauss T T i j) - 2 * gauss S T i j)
  unfold acc mmd
  rw [show (255 + 1 : ℕ) = 256 from rfl, zero_add, sum_tiles (fun a b => part S T a b), key]

end Cert.Mmd

end
-- ==== Proof.Lift.lean ====
/-
  A finite sum of reals, read in the extended reals, is the sum of the terms read there.
-/
import Idealize.ShloMosaic.PureOps.Ideal

noncomputable section

open scoped BigOperators

namespace Cert.Mmd

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

end Cert.Mmd

end
-- ==== Proof.Ref.lean ====
/-
  The reference's result as a real number. On real inputs every stage of the reference is real: the row sums of squares,
  the matrix of inner products, the three Gaussian kernel matrices entry by entry, their combination, the sum over all
  pairs from zero, and the quotient by `2²⁶`, which on the extended reals is the product with `2⁻²⁶`.
-/
import proofs.«170442_j77438260347128_1_alg».proof.Proof.Gen.ReferenceIdeal.Read
import proofs.«170442_j77438260347128_1_alg».proof.Proof.Spec
import proofs.«170442_j77438260347128_1_alg».proof.Proof.Consts
import proofs.«170442_j77438260347128_1_alg».proof.Proof.Lift
import Idealize.ShloMosaic.PureOps.Ideal.Laws
import Idealize.ShloMosaic.Lib.ValueIdx
import Idealize.ShloMosaic.Lib.Pipeline.Value

noncomputable section

open scoped BigOperators

namespace Cert.ReferenceIdeal.MmdRef

open Cert.ReferenceIdeal Cert.ReferenceIdeal.Gen Cert.ReferenceIdeal.Read Idealize.ShloMosaic Idealize.ShloMosaic.ValueIdx Cert.Mmd

/-! ## Index equations

Each composed index of the reference, read at explicit coordinates, is the index of those coordinates. -/

theorem idx_row (i : Fin 8192) (k : Fin 256) : idx_main_v37 (ix1 i) k = ix2 i k :=
  funext fun a => Fin.ext (by match a with | ⟨0, _⟩ => rfl | ⟨1, _⟩ => rfl)

theorem idx_lhs (i j : Fin 8192) (k : Fin 256) : lidx_main_v41 (ix2 i j) k = ix2 i k :=
  funext fun a => Fin.ext (by match a with | ⟨0, _⟩ => rfl | ⟨1, _⟩ => rfl)

theorem idx_rhs (i j : Fin 8192) (k : Fin 256) : idx_main_v40 (ridx_main_v41 (ix2 i j) k) = ix2 j k :=
  funext fun a => Fin.ext (by match a with | ⟨0, _⟩ => rfl | ⟨1, _⟩ => rfl)

theorem idx_col (i j : Fin 8192) : idx_main_v42 (idx_main_v44 (ix2 i j)) = ix1 i :=
  funext fun a => Fin.ext (by match a with | ⟨0, _⟩ => rfl)

theorem idx_lane (i j : Fin 8192) : idx_main_v43 (idx_main_v45 (ix2 i j)) = ix1 j :=
  funext fun a => Fin.ext (by match a with | ⟨0, _⟩ => rfl)

/-! ## The stages on real inputs -/

section Stages

variable (x y : (⟨S8192x256, .f32⟩ : BufTy).Contents (Elt Ideal)) (X Y : Fin 8192 → Fin 256 → ℝ)

/-- The row sum of squares, from zero, is the squared norm. -/
theorem row_sq (hx : ∀ (i : Fin 8192) (d : Fin 256), x (ix2 i d) = ((X i d : ℝ) : EReal)) (i : Fin 8192) :
    val_main_v37 (F := Ideal) x (ix1 i) = ((sqn X i : ℝ) : EReal) := by
  rw [val_main_v37_apply, val_main_cst_7_apply, Ideal.ofBits_def, Consts.ofBits_zero, zero_add]
  unfold sqn
  rw [coe_sum]
  refine Finset.sum_congr rfl fun k _ => ?_
  rw [idx_row, val_main_v36_apply, Ideal.mulf_def, hx, EReal.coe_mul]

/-- The second row sum of squares is the same function of its argument. -/
theorem row_sq' (hy : ∀ (i : Fin 8192) (d : Fin 256), y (ix2 i d) = ((Y i d : ℝ) : EReal)) (j : Fin 8192) :
    val_main_v39 (F := Ideal) y (ix1 j) = ((sqn Y j : ℝ) : EReal) :=
  row_sq y Y hy j

/-- The contraction against the transposed second operand is the inner product. -/
theorem dot_at (hx : ∀ (i : Fin 8192) (d : Fin 256), x (ix2 i d) = ((X i d : ℝ) : EReal))
    (hy : ∀ (i : Fin 8192) (d : Fin 256), y (ix2 i d) = ((Y i d : ℝ) : EReal)) (i j : Fin 8192) :
    val_main_v41 (F := Ideal) x y (ix2 i j) = ((dotp X Y i j : ℝ) : EReal) := by
  rw [val_main_v41_apply]
  unfold dotp
  rw [coe_sum]
  refine Finset.sum_congr rfl fun k _ => ?_
  rw [val_main_v40_apply, idx_lhs, idx_rhs, hx, hy, EReal.coe_mul]

/-- The kernel matrix entry: the exponential of minus the expanded squared distance over two, the quotient by two
    being the product with one half. -/
theorem gauss_at (hx : ∀ (i : Fin 8192) (d : Fin 256), x (ix2 i d) = ((X i d : ℝ) : EReal))
    (hy : ∀ (i : Fin 8192) (d : Fin 256), y (ix2 i d) = ((Y i d : ℝ) : EReal)) (i j : Fin 8192) :
    val_main_v53 (F := Ideal) x y (ix2 i j) = ((gauss X Y i j : ℝ) : EReal) := by
  rw [val_main_v53_apply, val_main_v52_apply, val_main_v51_apply, val_main_cst_10_apply, val_main_v50_apply,
    val_main_v49_apply, val_main_v46_apply, val_main_v44_apply, val_main_v42_apply, val_main_v45_apply,
    val_main_v43_apply, val_main_v48_apply, val_main_v47_apply, val_main_cst_9_apply, idx_col, idx_lane,
    row_sq x X hx i, row_sq' y Y hy j, dot_at x y X Y hx hy i j]
  simp only [Ideal.hostUnary_exp_def, Ideal.hostDivf_def, Ideal.hostNegf_def, Ideal.negf_def, Ideal.subf_def,
    Ideal.addf_def, Ideal.mulf_def, Ideal.ofBits_def, Consts.ofBits_two]
  rw [Ideal.div_coe (two_ne_zero), ← EReal.coe_add, ← EReal.coe_mul, ← EReal.coe_sub, ← EReal.coe_neg,
    ← EReal.coe_mul, Ideal.exp_coe]
  unfold gauss
  rw [zero_sub]

end Stages

/-- The three kernel matrices combined, entry by entry. The first two are the mixed one's function read at one sample
    twice. -/
theorem comb_at (x0 x1 : (⟨S8192x256, .f32⟩ : BufTy).Contents (Elt Ideal)) (S T : Fin 8192 → Fin 256 → ℝ)
    (h0 : ∀ (i : Fin 8192) (d : Fin 256), x0 (ix2 i d) = ((S i d : ℝ) : EReal))
    (h1 : ∀ (i : Fin 8192) (d : Fin 256), x1 (ix2 i d) = ((T i d : ℝ) : EReal)) (i j : Fin 8192) :
    val_main_v57 (F := Ideal) x0 x1 (ix2 i j)
      = (((gauss S S i j + gauss T T i j) - 2 * gauss S T i j : ℝ) : EReal) := by
  have e17 : val_main_v17 (F := Ideal) x0 = val_main_v53 (F := Ideal) x0 x0 := rfl
  have e35 : val_main_v35 (F := Ideal) x1 = val_main_v53 (F := Ideal) x1 x1 := rfl
  rw [val_main_v57_apply, val_main_v54_apply, val_main_v56_apply, val_main_v55_apply, val_main_cst_11_apply, e17, e35,
    gauss_at x0 x0 S S h0 h0 i j, gauss_at x1 x1 T T h1 h1 i j, gauss_at x0 x1 S T h0 h1 i j]
  simp only [Ideal.subf_def, Ideal.addf_def, Ideal.mulf_def, Ideal.ofBits_def, Consts.ofBits_two]
  rw [← EReal.coe_add, ← EReal.coe_mul, ← EReal.coe_sub]

/-- On real inputs the reference's result is the loss. -/
theorem value (x0 x1 : (⟨S8192x256, .f32⟩ : BufTy).Contents (Elt Ideal)) (S T : Fin 8192 → Fin 256 → ℝ)
    (h0 : ∀ (i : Fin 8192) (d : Fin 256), x0 (ix2 i d) = ((S i d : ℝ) : EReal))
    (h1 : ∀ (i : Fin 8192) (d : Fin 256), x1 (ix2 i d) = ((T i d : ℝ) : EReal)) :
    val_main_v59 (F := Ideal) x0 x1 = fun _ => ((mmd S T : ℝ) : EReal) := by
  funext i
  have hsum : ∑ j : S8192x8192.Idx, val_main_v57 (F := Ideal) x0 x1 j
      = ((∑ i : Fin 8192, ∑ j : Fin 8192, ((gauss S S i j + gauss T T i j) - 2 * gauss S T i j) : ℝ) : EReal) := by
    rw [sum_idx2, coe_sum]
    refine Finset.sum_congr rfl fun a _ => ?_
    rw [coe_sum]
    exact Finset.sum_congr rfl fun b _ => comb_at x0 x1 S T h0 h1 a b
  rw [val_main_v59_apply, val_main_v58_apply, val_main_cst_12_apply, val_main_cst_13_apply, hsum]
  simp only [Ideal.hostDivf_def, Ideal.ofBits_def, Consts.ofBits_zero, Consts.ofBits_pairs]
  rw [Ideal.div_coe (by norm_num : (67108864 : ℝ) ≠ 0)]
  unfold mmd
  rw [EReal.coe_mul, EReal.coe_add, EReal.coe_zero]

end Cert.ReferenceIdeal.MmdRef

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.LibRank2.lean ====
/-
  General facts about vector operations on small-rank arrays, read at explicit coordinates, at the ideal instance
  (floats are extended reals) where arithmetic is involved.

  * A plain matrix product into a zero accumulator at `(r, c)` is `∑ k, x[r, k] · w[k, c]`.
  * Casts that add or drop unit axes read the same entry: `[a] → [a, 1]`, `[1, 1, a] → [a]`, `[a] → [1, 1, a]`.
  * A sum or a maximum over the second axis of a rank-2 array, read at row `i`, runs over that row; a sum over the
    first axis, read at column `k`, runs over that column.
  * Two arrays joined along the second axis: a column below the first extent comes from the first, the others from
    the second, the first extent less. The same for rank-3 arrays joined along the third axis.
  * The exponential acts entry by entry.
-/
import proofs.«170442_j77438260347128_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib2

open Idealize.ShloMosaic Idealize.ShloMosaic.ValueIdx

variable {α : Type}

/-- A plain matrix product into a zero accumulator, at explicit coordinates. -/
theorem plain_matmul_ix2 {φ₁ φ₂ : FTy} (M K N : Nat) (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) :=
  Cert.Gnn.plain_matmul_apply M K N prec x w (ix2 r c)

/-- A vector cast to a column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to a vector reads, at `j`, the operand at `(0, 0, j)`. -/
theorem shapeCast_11a_a_apply {a : ℕ} (x : (⟨3, ![1, 1, a]⟩ : Shape).Idx → α) (h : (⟨3, ![1, 1, a]⟩ : Shape).ShapeCasts ⟨1, ![a]⟩)
    (j : Fin a) : shapeCast ⟨1, ![a]⟩ x h (ix1 j) = x (ix3 (0 : Fin 1) (0 : Fin 1) j) :=
  shapeCast_apply x h _ _ (by
    rw [Shape.rowMajor_val_three, Shape.rowMajor_val_one]
    show (0 * 1 + 0) * a + j.val = j.val
    simp)

/-- A vector cast to `[1, 1, a]` reads, at `(u, v, k)`, the vector's entry `k`. -/
theorem shapeCast_a_11a_apply {a : ℕ} (x : (⟨1, ![a]⟩ : Shape).Idx → α) (h : (⟨1, ![a]⟩ : Shape).ShapeCasts ⟨3, ![1, 1, a]⟩)
    (u v : Fin 1) (k : Fin a) : shapeCast ⟨3, ![1, 1, a]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * a + k.val
    rw [hu, hv]; simp)

/-- The index a reduction over the second axis inserts at row `i`, coordinate `k`. -/
theorem lift_axis1 {A B : ℕ} (h : Shape.Reduces ⟨2, ![A, B]⟩ [1] ⟨1, ![A]⟩) (i : Fin A) (k : Fin B) :
    h.lift (ix1 i) k = ix2 i k :=
  funext fun d => Fin.ext (by match d with | ⟨0, _⟩ => rfl | ⟨1, _⟩ => rfl)

/-- The index a reduction over the first axis inserts at column `k`, coordinate `i`. -/
theorem lift_axis0 {A B : ℕ} (h : Shape.Reduces ⟨2, ![A, B]⟩ [0] ⟨1, ![B]⟩) (k : Fin B) (i : Fin A) :
    h.lift (ix1 k) i = ix2 i k :=
  funext fun d => Fin.ext (by match d with | ⟨0, _⟩ => rfl | ⟨1, _⟩ => rfl)

/-- A sum over the second axis, at row `i`. -/
theorem multiReduction_add_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (i : Fin A) :
    multiReduction .add [1] ⟨1, ![A]⟩ src acc h hφ hacc (ix1 i) = ∑ k : Fin B, src (ix2 i k) :=
  (Ideal.multiReduction_add_single src acc h hφ hacc (ix1 i)).trans
    (Finset.sum_congr rfl fun k _ => congrArg src (lift_axis1 h i k))

/-- A sum over the first axis, at column `k`. -/
theorem multiReduction_add_axis0 {φ : FTy} {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (k : Fin B) :
    multiReduction .add [0] ⟨1, ![B]⟩ src acc h hφ hacc (ix1 k) = ∑ i : Fin A, src (ix2 i k) :=
  (Ideal.multiReduction_add_single src acc h hφ hacc (ix1 k)).trans
    (Finset.sum_congr rfl fun i _ => congrArg src (lift_axis0 h k i))

/-- A maximum over the second axis, at row `i`: the fold of `max` from the accumulator's value over the row. -/
theorem multiReduction_max_axis1 {φ : FTy} {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (i : Fin A) :
    multiReduction .maximumf [1] ⟨1, ![A]⟩ src acc h hφ hacc (ix1 i)
      = (Finset.univ : Finset (Fin B)).fold max (Ideal.ofBits φ acc) (fun k => src (ix2 i k)) :=
  (Ideal.multiReduction_maximumf_single src acc h hφ hacc (ix1 i)).trans
    (congrArg (fun g => (Finset.univ : Finset (Fin B)).fold max (Ideal.ofBits φ acc) g)
      (funext fun k => congrArg src (lift_axis1 h i k)))

/-- Two rank-2 arrays joined along the second axis, read at `(i, q)`. -/
theorem concatenate_cols_apply {a n1 n2 n : ℕ} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, n]⟩ 1) (hn : n = n1 + n2) (i : Fin a) (q : Fin n) :
    concatenate ⟨2, ![a, n]⟩ 1 [⟨⟨2, ![a, n1]⟩, x₁⟩, ⟨⟨2, ![a, n2]⟩, x₂⟩] h (ix2 i q)
      = if hq : q.val < n1 then x₁ (ix2 i ⟨q.val, hq⟩) else x₂ (ix2 i ⟨q.val - n1, by have := q.isLt; omega⟩) := by
  split
  · next hq =>
    exact concatenate_pair_apply_left 1 x₁ x₂ h (ix2 i q) rfl (ix2 i ⟨q.val, hq⟩)
      (fun b => match b with | ⟨0, _⟩ => rfl | ⟨1, _⟩ => rfl)
  · next hq =>
    exact concatenate_pair_apply_right 1 x₁ x₂ h (ix2 i q) rfl rfl (ix2 i ⟨q.val - n1, by have := q.isLt; omega⟩)
      (fun b hb => match b, hb with | ⟨0, _⟩, _ => rfl | ⟨1, _⟩, hb => absurd rfl hb)
      (by show (q.val - n1) + n1 = q.val; omega)

/-- Two rank-3 arrays joined along the third axis, read at `(b, i, q)`. -/
theorem concatenate_axis2_apply {m a n1 n2 n : ℕ} (x₁ : (⟨3, ![m, a, n1]⟩ : Shape).Idx → α) (x₂ : (⟨3, ![m, a, n2]⟩ : Shape).Idx → α)
    (h : Shape.Concatenates [⟨3, ![m, a, n1]⟩, ⟨3, ![m, a, n2]⟩] ⟨3, ![m, a, n]⟩ 2) (hn : n = n1 + n2) (b : Fin m) (i : Fin a) (q : Fin n) :
    concatenate ⟨3, ![m, a, n]⟩ 2 [⟨⟨3, ![m, a, n1]⟩, x₁⟩, ⟨⟨3, ![m, a, n2]⟩, x₂⟩] h (ix3 b i q)
      = if hq : q.val < n1 then x₁ (ix3 b i ⟨q.val, hq⟩) else x₂ (ix3 b i ⟨q.val - n1, by have := q.isLt; omega⟩) := by
  split
  · next hq =>
    exact concatenate_pair_apply_left 2 x₁ x₂ h (ix3 b i q) rfl (ix3 b i ⟨q.val, hq⟩)
      (fun d => match d with | ⟨0, _⟩ => rfl | ⟨1, _⟩ => rfl | ⟨2, _⟩ => rfl)
  · next hq =>
    exact concatenate_pair_apply_right 2 x₁ x₂ h (ix3 b i q) rfl rfl (ix3 b i ⟨q.val - n1, by have := q.isLt; omega⟩)
      (fun d hd => match d, hd with | ⟨0, _⟩, _ => rfl | ⟨1, _⟩, _ => rfl | ⟨2, _⟩, hd => absurd rfl hd)
      (by show (q.val - n1) + n1 = q.val; omega)

/-- The exponential acts entry by entry. -/
theorem exp_apply {s : Shape} {φ : FTy} (a : FVec Ideal s φ) (i : s.Idx) : exp a i = Ideal.exp (a i) := rfl

end Cert.Lib2

end
-- ==== Proof.LibLayout2.lean ====
/-
  Three layout operations on small ranks, read at one entry (any element type).

  * A vector of length `b` viewed as a single row `[1, b]`: entry `(0, c)` is the vector's entry `c`.
  * The transpose of an `[a, b]` matrix: entry `(q, p)` of the transpose is entry `(p, q)` of the matrix.
  * The leading `n` columns of an `[a, b]` matrix (a unit-stride slice at offset zero): entry `(p, q)` of the slice
    is entry `(p, q)` of the matrix.
-/
import Idealize.ShloMosaic.Lib.ValueIdx
import Idealize.ShloMosaic.Lib.Pipeline.Value

noncomputable section

namespace Cert.Layout2

open Idealize.ShloMosaic Idealize.ShloMosaic.ValueIdx

/-- A vector of length `b` cast to the one-row matrix `[1, b]`, read at `(0, c)`, is the vector at `c`: both sit at
    row-major position `c`. -/
theorem shapeCast_b_1b_apply {α : Type} {b : ℕ} (v : (⟨1, ![b]⟩ : Shape).Idx → α)
    (h : (⟨1, ![b]⟩ : Shape).ShapeCasts ⟨2, ![1, b]⟩) (c : Fin b) :
    shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

/-- The transpose of an `[a, b]` matrix read at `(q, p)` is the matrix at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) := by
  refine transpose_apply [1, 0] x h (ix2 q p) (ix2 p q) fun ax => ?_
  match ax with
  | ⟨0, _⟩ => rfl
  | ⟨1, _⟩ => rfl

/-- The leading `n` columns of an `[a, b]` matrix, read at `(p, q)`, are the matrix at `(p, q)`. -/
theorem slice_lead_cols_apply {α : Type} {a b n : ℕ} (x : (⟨2, ![a, b]⟩ : Shape).Idx → α)
    (h : (⟨2, ![a, b]⟩ : Shape).Slices ![0, 0] ⟨2, ![a, n]⟩) (hn : n ≤ b) (p : Fin a) (q : Fin n) :
    extractStridedSlice ⟨2, ![a, n]⟩ ![0, 0] x h (ix2 p q) = x (ix2 p ⟨q.val, lt_of_lt_of_le q.isLt hn⟩) := by
  refine extractStridedSlice_apply ![0, 0] x h (ix2 p q) (ix2 p ⟨q.val, lt_of_lt_of_le q.isLt hn⟩) fun ax => ?_
  match ax with
  | ⟨0, _⟩ => show p.val = 0 + p.val; omega
  | ⟨1, _⟩ => show q.val = 0 + q.val; omega

end Cert.Layout2

end
-- ==== Proof.Tile.lean ====
/-
  One grid point of the kernel, as arithmetic. At tile `(a, b)` the body holds rows `512a … 512a+511` of both samples
  and, transposed, rows `512b … 512b+511` of both; from them it forms the three 512 × 512 Gaussian kernel tiles, sums
  each, combines the sums as `ss + tt - 2·st`, and adds the result to the running total. When every entry it reads is
  a real number, so is every intermediate value, and the new total is the old one plus the tile's share of the loss.
-/
import proofs.«170442_j77438260347128_1_alg».proof.Proof.Gen.KernelIdeal.Skeleton
import proofs.«170442_j77438260347128_1_alg».proof.Proof.Spec
import proofs.«170442_j77438260347128_1_alg».proof.Proof.Consts
import proofs.«170442_j77438260347128_1_alg».proof.Proof.Lift
import proofs.«170442_j77438260347128_1_alg».proof.Proof.LibRank2
import proofs.«170442_j77438260347128_1_alg».proof.Proof.LibLayout2
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.Mmd

/-- What one grid point makes of the running total `acc`, from the four input blocks: the body's arithmetic as one term. -/
def step {F : FTy → Type} [FloatOps F] (x0 x1 : Vec F S512x256 .f32) (x2 x3 : Vec F S256x512 .f32)
    (acc : Vec F S1x1 .f32) : FVec F S1x1 .f32 :=
  k0_pay1 (k0_pay9 x0 x1 (k0_pay4 x3) (k0_pay5 x0) (k0_pay6 x1) (k0_pay7 x3) (k0_pay8 x0 x2) acc)

/-- The kernel's matrix product contracts the left block's second axis with the right block's first: the plain
    `512 × 256` by `256 × 512` product. -/
theorem dot_eq : dot_S512x256_S256x512_S512x512_1_0_0_1_n_n = DotDims.plain 512 256 512 := rfl

section Pattern
variable {F : FTy → Type} [FloatOps F]

/-- The column of squared row norms of a 512 × 256 block. -/
def rowSq (x : FVec F S512x256 .f32) : FVec F S512x1 .f32 :=
  shapeCast S512x1 (multiReduction .add [1] S512 (mulf x x) 0x00000000#32 reduces_S512x256_S512 (.inl rfl) rfl)
    shapeCasts_S512_S512x1

/-- The row of squared column norms of a 256 × 512 block. -/
def colSq (y : FVec F S256x512 .f32) : FVec F S1x512 .f32 :=
  shapeCast S1x512 (multiReduction .add [0] S512 (mulf y y) 0x00000000#32 reduces_S256x512_S512 (.inl rfl) rfl)
    shapeCasts_S512_S1x512

/-- One Gaussian tile summed along each row: from the squared norms `xn` (a column) and `yn` (a row) and the blocks
    `x`, `y`, the column whose entry `r` is `Σ_c exp ((0 - ((xn r + yn c) - 2 · (x y)[r, c])) · ½)`. -/
def gaussRows (xn : FVec F S512x1 .f32) (yn : FVec F S1x512 .f32) (x : FVec F S512x256 .f32)
    (y : FVec F S256x512 .f32) : FVec F S512x1 .f32 :=
  shapeCast S512x1
    (multiReduction .add [1] S512
      (exp (mulf
        (subf (broadcast S512x512 (Scalar.ofBits .f32 0x00000000#32))
          (subf
            (addf (broadcastTo S512x512 xn broadcasts_S512x1_S512x512)
              (broadcastTo S512x512 yn broadcasts_S1x512_S512x512))
            (mulf (broadcast S512x512 (Scalar.ofBits .f32 0x40000000#32))
              (matmul dot_S512x256_S256x512_S512x512_1_0_0_1_n_n (some .fp32) x y
                (constant S512x512 .f32 0x00000000#32)))))
        (broadcast S512x512 (Scalar.ofBits .f32 0x3F000000#32))))
      0x00000000#32 reduces_S512x512_S512 (.inl rfl) rfl)
    shapeCasts_S512_S512x1

/-- The total of a 512-entry column, as a 1 × 1 array. -/
def colTotal (v : FVec F S512x1 .f32) : FVec F S1x1 .f32 :=
  shapeCast S1x1 (multiReduction .add [0] S1 v 0x00000000#32 reduces_S512x1_S1 (.inl rfl) rfl) shapeCasts_S1_S1x1

/-- The body's values are instances of the four patterns above. -/
theorem pay5_eq (x : Vec F S512x256 .f32) : k0_pay5 x = rowSq x := rfl
theorem pay6_eq (x : Vec F S512x256 .f32) : k0_pay6 x = rowSq x := rfl
theorem pay7_eq (y : Vec F S256x512 .f32) : k0_pay7 y = colSq (k0_pay4 y) := rfl
theorem pay8_eq (x : Vec F S512x256 .f32) (y : Vec F S256x512 .f32) :
    k0_pay8 x y = gaussRows (rowSq x) (colSq (shapeCast S256x512 y shapeCasts_S256x512_S256x512)) x
      (shapeCast S256x512 y shapeCasts_S256x512_S256x512) := rfl
theorem pay9_eq (v5 v6 : Vec F S512x256 .f32) (v10 : FVec F S256x512 .f32) (v13 v16 : FVec F S512x1 .f32)
    (v22 : FVec F S1x512 .f32) (v36 : FVec F S512x1 .f32) (v75 : Vec F S1x1 .f32) :
    k0_pay9 v5 v6 v10 v13 v16 v22 v36 v75
      = addf v75 (subf (addf (colTotal v36) (colTotal (gaussRows v16 v22 v6 v10)))
          (mulf (broadcast S1x1 (Scalar.ofBits .f32 0x40000000#32)) (colTotal (gaussRows v13 v22 v5 v10)))) := rfl

end Pattern

/-- The three literals of the pattern: `0`, `2` and `½`. -/
theorem bits_zero : Scalar.ofBits (F := Ideal) .f32 0x00000000#32 = ((0 : ℝ) : EReal) :=
  Consts.ofBits_zero.trans EReal.coe_zero.symm
theorem bits_two : Scalar.ofBits (F := Ideal) .f32 0x40000000#32 = ((2 : ℝ) : EReal) := Consts.ofBits_two
theorem bits_half : Scalar.ofBits (F := Ideal) .f32 0x3F000000#32 = ((1 / 2 : ℝ) : EReal) := Consts.ofBits_half

/-- On real entries, entry `r` of the column of squared row norms is `Σ_d X[r, d]²`. -/
theorem rowSq_apply (x : FVec Ideal S512x256 .f32) (X : Fin 512 → Fin 256 → ℝ)
    (hx : ∀ (r : Fin 512) (d : Fin 256), x (ix2 r d) = ((X r d : ℝ) : EReal)) (r : Fin 512) :
    rowSq x (ix2 r (0 : Fin 1)) = ((∑ d : Fin 256, X r d * X r d : ℝ) : EReal) := by
  unfold rowSq
  refine (Cert.Lib2.shapeCast_a_a1_apply _ _ r 0).trans ?_
  refine (Cert.Lib2.multiReduction_add_axis1 (mulf x x) 0x00000000#32 reduces_S512x256_S512 (.inl rfl) rfl r).trans ?_
  rw [coe_sum]
  refine Finset.sum_congr rfl fun d _ => ?_
  rw [mulf_apply, hx, EReal.coe_mul]

/-- On real entries, entry `c` of the row of squared column norms is `Σ_d Y[d, c]²`. -/
theorem colSq_apply (y : FVec Ideal S256x512 .f32) (Y : Fin 256 → Fin 512 → ℝ)
    (hy : ∀ (d : Fin 256) (c : Fin 512), y (ix2 d c) = ((Y d c : ℝ) : EReal)) (c : Fin 512) :
    colSq y (ix2 (0 : Fin 1) c) = ((∑ d : Fin 256, Y d c * Y d c : ℝ) : EReal) := by
  unfold colSq
  refine (Cert.Layout2.shapeCast_b_1b_apply _ _ c).trans ?_
  refine (Cert.Lib2.multiReduction_add_axis0 (mulf y y) 0x00000000#32 reduces_S256x512_S512 (.inl rfl) rfl c).trans ?_
  rw [coe_sum]
  refine Finset.sum_congr rfl fun d _ => ?_
  rw [mulf_apply, hy, EReal.coe_mul]

/-- The total of a column of reals is the sum of its entries. -/
theorem colTotal_apply (v : FVec Ideal S512x1 .f32) (f : Fin 512 → ℝ)
    (hv : ∀ r : Fin 512, v (ix2 r (0 : Fin 1)) = ((f r : ℝ) : EReal)) :
    colTotal v (ix2 (0 : Fin 1) (0 : Fin 1)) = ((∑ r : Fin 512, f r : ℝ) : EReal) := by
  unfold colTotal
  refine (Cert.Lib2.shapeCast_a_a1_apply _ _ (0 : Fin 1) 0).trans ?_
  refine (Cert.Lib2.multiReduction_add_axis0 v 0x00000000#32 reduces_S512x1_S1 (.inl rfl) rfl (0 : Fin 1)).trans ?_
  rw [coe_sum]
  exact Finset.sum_congr rfl fun r _ => hv r

/-- On real norms and real entries, entry `r` of the row-summed Gaussian tile is
    `Σ_c exp ((0 - ((nx r + ny c) - 2 · Σ_d X[r, d] · Y[d, c])) · ½)`: every intermediate value is a real number. -/
theorem gaussRows_apply (xn : FVec Ideal S512x1 .f32) (yn : FVec Ideal S1x512 .f32)
    (x : FVec Ideal S512x256 .f32) (y : FVec Ideal S256x512 .f32)
    (nx ny : Fin 512 → ℝ) (X : Fin 512 → Fin 256 → ℝ) (Y : Fin 256 → Fin 512 → ℝ)
    (hxn : ∀ r : Fin 512, xn (ix2 r (0 : Fin 1)) = ((nx r : ℝ) : EReal))
    (hyn : ∀ c : Fin 512, yn (ix2 (0 : Fin 1) c) = ((ny c : ℝ) : EReal))
    (hx : ∀ (r : Fin 512) (d : Fin 256), x (ix2 r d) = ((X r d : ℝ) : EReal))
    (hy : ∀ (d : Fin 256) (c : Fin 512), y (ix2 d c) = ((Y d c : ℝ) : EReal)) (r : Fin 512) :
    gaussRows xn yn x y (ix2 r (0 : Fin 1))
      = ((∑ c : Fin 512, Real.exp ((0 - ((nx r + ny c) - 2 * ∑ d : Fin 256, X r d * Y d c)) * (1 / 2)) : ℝ) : EReal) := by
  unfold gaussRows
  refine (Cert.Lib2.shapeCast_a_a1_apply _ _ r 0).trans ?_
  refine (Cert.Lib2.multiReduction_add_axis1 _ 0x00000000#32 reduces_S512x512_S512 (.inl rfl) rfl r).trans ?_
  rw [coe_sum]
  refine Finset.sum_congr rfl fun c _ => ?_
  have hdot : (∑ k : Fin 256, x (ix2 r k) * y (ix2 k c)) = ((∑ d : Fin 256, X r d * Y d c : ℝ) : EReal) := by
    rw [coe_sum]
    exact Finset.sum_congr rfl fun d _ => by rw [hx, hy, EReal.coe_mul]
  have hm : matmul dot_S512x256_S256x512_S512x512_1_0_0_1_n_n (some .fp32) x y
      (constant (F := Ideal) S512x512 .f32 0x00000000#32) (ix2 r c) = ((∑ d : Fin 256, X r d * Y d c : ℝ) : EReal) :=
    (Cert.Lib2.plain_matmul_ix2 512 256 512 (some .fp32) x y r c).trans hdot
  rw [Cert.Lib2.exp_apply, mulf_apply, subf_apply, subf_apply, addf_apply, mulf_apply, broadcast_apply, broadcast_apply,
    broadcast_apply, Cert.Gnn.broadcastTo_a1_ab_apply, broadcastTo_1b_ab_apply, hm, hxn, hyn, bits_zero, bits_two, bits_half]
  simp only [← EReal.coe_mul, ← EReal.coe_add, ← EReal.coe_sub]
  rfl

/-- The reset value is zero. -/
theorem zero_apply : (k0_pay3 (F := Ideal)) (ix2 (0 : Fin 1) (0 : Fin 1)) = ((0 : ℝ) : EReal) := by
  unfold k0_pay3
  show shapeCast S1x1 (broadcast S1x1 (Scalar.ofBits (F := Ideal) .f32 0x00000000#32)) shapeCasts_S1x1_S1x1
      (ix2 (0 : Fin 1) (0 : Fin 1)) = _
  rw [shapeCast_self, broadcast_apply]
  exact bits_zero

/-- The last point's output: the total times `2⁻²⁶`. -/
theorem scale_apply (v : Vec Ideal S1x1 .f32) (A : ℝ) (h : v (ix2 (0 : Fin 1) (0 : Fin 1)) = (A : EReal)) :
    k0_pay2 v (ix2 (0 : Fin 1) (0 : Fin 1)) = ((A * (1 / 67108864) : ℝ) : EReal) := by
  unfold k0_pay2
  show mulf v (broadcast S1x1 (Scalar.ofBits (F := Ideal) .f32 0x32800000#32)) (ix2 (0 : Fin 1) (0 : Fin 1)) = _
  rw [mulf_apply, broadcast_apply, h, EReal.coe_mul]
  exact congrArg (fun t => (A : EReal) * t) Consts.ofBits_inv_pairs

/-- On real entries, one grid point at tile `(a, b)` adds that tile's share to a real running total. -/
theorem step_apply (S T : Fin 8192 → Fin 256 → ℝ) (a b : Fin 16)
    (x0 x1 : Vec Ideal S512x256 .f32) (x2 x3 : Vec Ideal S256x512 .f32) (acc : Vec Ideal S1x1 .f32) (A : ℝ)
    (h0 : ∀ (r : Fin 512) (d : Fin 256), x0 (ix2 r d) = ((S (tileRow a r) d : ℝ) : EReal))
    (h1 : ∀ (r : Fin 512) (d : Fin 256), x1 (ix2 r d) = ((T (tileRow a r) d : ℝ) : EReal))
    (h2 : ∀ (d : Fin 256) (c : Fin 512), x2 (ix2 d c) = ((S (tileRow b c) d : ℝ) : EReal))
    (h3 : ∀ (d : Fin 256) (c : Fin 512), x3 (ix2 d c) = ((T (tileRow b c) d : ℝ) : EReal))
    (hacc : acc (ix2 (0 : Fin 1) (0 : Fin 1)) = (A : EReal)) :
    step x0 x1 x2 x3 acc (ix2 (0 : Fin 1) (0 : Fin 1)) = ((A + part S T a b : ℝ) : EReal) := by
  have e4 : k0_pay4 x3 = x3 := shapeCast_self x3 _
  have e2 : shapeCast S256x512 x2 shapeCasts_S256x512_S256x512 = x2 := shapeCast_self x2 _
  have hn0 : ∀ r : Fin 512, rowSq (F := Ideal) x0 (ix2 r (0 : Fin 1)) = ((sqn S (tileRow a r) : ℝ) : EReal) :=
    fun r => rowSq_apply x0 (fun r d => S (tileRow a r) d) h0 r
  have hn1 : ∀ r : Fin 512, rowSq (F := Ideal) x1 (ix2 r (0 : Fin 1)) = ((sqn T (tileRow a r) : ℝ) : EReal) :=
    fun r => rowSq_apply x1 (fun r d => T (tileRow a r) d) h1 r
  have hm2 : ∀ c : Fin 512, colSq (F := Ideal) x2 (ix2 (0 : Fin 1) c) = ((sqn S (tileRow b c) : ℝ) : EReal) :=
    fun c => colSq_apply x2 (fun d c => S (tileRow b c) d) h2 c
  have hm3 : ∀ c : Fin 512, colSq (F := Ideal) x3 (ix2 (0 : Fin 1) c) = ((sqn T (tileRow b c) : ℝ) : EReal) :=
    fun c => colSq_apply x3 (fun d c => T (tileRow b c) d) h3 c
  have hss : colTotal (gaussRows (rowSq (F := Ideal) x0) (colSq (F := Ideal) x2) x0 x2) (ix2 (0 : Fin 1) (0 : Fin 1))
      = ((pairSum S S a b : ℝ) : EReal) :=
    colTotal_apply _ (fun r => ∑ c : Fin 512, gauss S S (tileRow a r) (tileRow b c)) fun r =>
      gaussRows_apply _ _ x0 x2 (fun r => sqn S (tileRow a r)) (fun c => sqn S (tileRow b c))
        (fun r d => S (tileRow a r) d) (fun d c => S (tileRow b c) d) hn0 hm2 h0 h2 r
  have htt : colTotal (gaussRows (rowSq (F := Ideal) x1) (colSq (F := Ideal) x3) x1 x3) (ix2 (0 : Fin 1) (0 : Fin 1))
      = ((pairSum T T a b : ℝ) : EReal) :=
    colTotal_apply _ (fun r => ∑ c : Fin 512, gauss T T (tileRow a r) (tileRow b c)) fun r =>
      gaussRows_apply _ _ x1 x3 (fun r => sqn T (tileRow a r)) (fun c => sqn T (tileRow b c))
        (fun r d => T (tileRow a r) d) (fun d c => T (tileRow b c) d) hn1 hm3 h1 h3 r
  have hst : colTotal (gaussRows (rowSq (F := Ideal) x0) (colSq (F := Ideal) x3) x0 x3) (ix2 (0 : Fin 1) (0 : Fin 1))
      = ((pairSum S T a b : ℝ) : EReal) :=
    colTotal_apply _ (fun r => ∑ c : Fin 512, gauss S T (tileRow a r) (tileRow b c)) fun r =>
      gaussRows_apply _ _ x0 x3 (fun r => sqn S (tileRow a r)) (fun c => sqn T (tileRow b c))
        (fun r d => S (tileRow a r) d) (fun d c => T (tileRow b c) d) hn0 hm3 h0 h3 r
  unfold step k0_pay1
  refine (congrFun (shapeCast_self _ shapeCasts_S1x1_S1x1) (ix2 (0 : Fin 1) (0 : Fin 1))).trans ?_
  rw [pay9_eq, pay8_eq, pay7_eq, pay6_eq, pay5_eq, e4, e2, addf_apply, subf_apply, addf_apply, mulf_apply, broadcast_apply,
    hss, htt, hst, hacc, bits_two]
  simp only [← EReal.coe_mul, ← EReal.coe_add, ← EReal.coe_sub]
  rfl

end Cert.KernelIdeal.Tile

end
-- ==== Proof.Pieces.lean ====
/-
  What one grid point leaves behind, as values. The body keeps a one-entry running total in a scratch cell. At the
  first grid point it resets the cell to zero and then adds the point's contribution; at every later point it adds the
  contribution to what the point before left; at the last point it also writes the total, scaled, into the output's
  staging cell. Each of these contents is one store's value, whose loads read whole buffers, so each is the body's
  arithmetic applied to the blocks and to the previous total.
-/
import proofs.«170442_j77438260347128_1_alg».proof.Proof.Gen.KernelIdeal.Frame
import proofs.«170442_j77438260347128_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Tile

variable {F : FTy → Type} [FloatOps F]

/-- The zero offsets of a whole-buffer access. -/
theorem hz : (![0, 0] : Fin 2 → Nat) = fun _ => 0 := funext fun a => by fin_cases a <;> rfl

/-- A middle point leaves the previous total plus the point's contribution. -/
theorem sout_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S512x256 .f32) (x2 x3 : Vec F S256x512 .f32) (xs0 : Vec F S1x1 .f32) :
    sout0_B_0 c i arg2 harg2 arg3 harg3 arg4 harg4 arg5 harg5 arg6 harg6 arg7 harg7 hc0 hc1 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S512x256) hz, View.ld_unit_zero (S := S256x512) hz, View.ld_unit_zero (S := S1x1) hz]
  rfl

/-- The last point leaves the same in the scratch cell, -/
theorem sout_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S512x256 .f32) (x2 x3 : Vec F S256x512 .f32) (xs0 : Vec F S1x1 .f32) :
    sout0_C_0 c i arg2 harg2 arg3 harg3 arg4 harg4 arg5 harg5 arg6 harg6 arg7 harg7 hc0 hc1 x0 x1 x2 x3 xs0 = step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S512x256) hz, View.ld_unit_zero (S := S256x512) hz, View.ld_unit_zero (S := S1x1) hz]
  rfl

/-- and writes that total, scaled, into the output's staging cell: it reads the total back from the cell it has just
    stored it in. -/
theorem out_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S512x256 .f32) (x2 x3 : Vec F S256x512 .f32) (xs0 : Vec F S1x1 .f32) :
    out0_C_4 c i arg2 harg2 arg3 harg3 arg4 harg4 arg5 harg5 arg6 harg6 arg7 harg7 hc0 hc1 x0 x1 x2 x3 xs0 = k0_pay2 (step x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readCov_unit_zero (S := S1x1) _ hz, View.readAt_eq_ld, harg2.read_unread, harg3.read_unread, harg4.read_unread, harg5.read_unread, harg6.read_unread, harg7.read_unread, View.ld_unit_zero (S := S512x256) hz, View.ld_unit_zero (S := S256x512) hz, View.ld_unit_zero (S := S1x1) hz]
  rfl

/-- The first point resets the cell to zero, reads the zero back, and leaves zero plus its contribution. -/
theorem sout_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S512x256 .f32) (x2 x3 : Vec F S256x512 .f32) :
    sout0_A_0 c i arg2 harg2 arg3 harg3 arg4 harg4 arg5 harg5 arg6 harg6 arg7 harg7 hc0 hc1 x0 x1 x2 x3 = step x0 x1 x2 x3 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, View.ld_unit_zero (S := S512x256) hz, View.ld_unit_zero (S := S256x512) hz, View.ld_unit_zero (S := S1x1) hz]
  rfl

end Cert.KernelIdeal.Pieces

end
-- ==== Proof.Blocks.lean ====
/-
  What the kernel's windows read. The pallas call is given the two samples and their transposes. At grid point `t`,
  tile `(t / 16, t % 16)`, window 0 holds rows `512 (t/16) … + 511` of the first sample and window 1 those of the
  second; windows 2 and 3 hold columns `512 (t%16) … + 511` of the transposed samples, that is the same-numbered rows
  of the samples themselves with the two coordinates exchanged.
-/
import proofs.«170442_j77438260347128_1_alg».proof.Proof.Gen.KernelIdeal.Frame
import proofs.«170442_j77438260347128_1_alg».proof.Proof.Spec
import proofs.«170442_j77438260347128_1_alg».proof.Proof.LibLayout2
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Mmd

variable {F : FTy → Type} [FloatOps F]
variable (m : (ℓ : Loc nD τ sig) → Buf (Elt F) ℓ)

/-- The four input blocks at a grid point, at their literal shapes. -/
abbrev blk0 (c : Dev nD) (t : Fin cfg0.N) : Vec F S512x256 .f32 := iblk m c 0 t
abbrev blk1 (c : Dev nD) (t : Fin cfg0.N) : Vec F S512x256 .f32 := iblk m c 1 t
abbrev blk2 (c : Dev nD) (t : Fin cfg0.N) : Vec F S256x512 .f32 := iblk m c 2 t
abbrev blk3 (c : Dev nD) (t : Fin cfg0.N) : Vec F S256x512 .f32 := iblk m c 3 t

/-- The block indices of the four windows at a grid point, decided once over the grid. -/
theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val / 16 ∧ win0_1.index t 1 = 0 :=
  (by decide +kernel : ∀ t : Fin grid0.N, win0_1.index t 0 = t.val / 16 ∧ win0_1.index t 1 = 0)
theorem idx2 : ∀ t : Fin cfg0.N, win0_2.index t 0 = 0 ∧ win0_2.index t 1 = t.val % 16 :=
  (by decide +kernel : ∀ t : Fin grid0.N, win0_2.index t 0 = 0 ∧ win0_2.index t 1 = t.val % 16)
theorem idx3 : ∀ t : Fin cfg0.N, win0_3.index t 0 = 0 ∧ win0_3.index t 1 = t.val % 16 :=
  (by decide +kernel : ∀ t : Fin grid0.N, win0_3.index t 0 = 0 ∧ win0_3.index t 1 = t.val % 16)

/-- The arrays the third and fourth windows read are the transposes the host computes before the call. -/
theorem V_v0 (c : Dev nD) : (V m c main_v0 : Vec F S256x8192 .f32) =
    transpose S256x8192 [1, 0] (m ((c.tc : Thread nD τ).loc main_arg0)) transposes_S8192x256_S256x8192_1_0 := by
  show StableHlo.after hostOps0 (fun b => m (c, b)) (Proc.devRef .tc main_v0) = _
  after_results
theorem V_v1 (c : Dev nD) : (V m c main_v1 : Vec F S256x8192 .f32) =
    transpose S256x8192 [1, 0] (m ((c.tc : Thread nD τ).loc main_arg1)) transposes_S8192x256_S256x8192_1_0 := by
  show StableHlo.after hostOps0 (fun b => m (c, b)) (Proc.devRef .tc main_v1) = _
  after_results

/-- Window 0 at `(r, d)`: the first sample at row `512 (t/16) + r`, coordinate `d`. -/
theorem blk0_apply (c : Dev nD) (t : Fin cfg0.N) (r : Fin 512) (d : Fin 256) :
    blk0 m c t (ix2 r d) = m ((c.tc : Thread nD τ).loc main_arg0) (ix2 (tileRow (tileA t.val) r) d) := by
  have hN : t.val < 256 := lt_of_lt_of_eq t.isLt N_0
  unfold blk0 iblk
  rw [View.read_apply]
  show V m c main_arg0 _ = _
  rw [V_main_arg0]
  congr 1
  funext a
  apply Fin.ext
  match a with
  | ⟨0, _⟩ => show win0_0.index t 0 * 512 + 1 * r.val = 512 * (t.val / 16 % 16) + r.val; rw [(idx0 t).1]; omega
  | ⟨1, _⟩ => show win0_0.index t 1 * 256 + 1 * d.val = d.val; rw [(idx0 t).2]; omega

/-- Window 1 at `(r, d)`: the second sample at the same place. -/
theorem blk1_apply (c : Dev nD) (t : Fin cfg0.N) (r : Fin 512) (d : Fin 256) :
    blk1 m c t (ix2 r d) = m ((c.tc : Thread nD τ).loc main_arg1) (ix2 (tileRow (tileA t.val) r) d) := by
  have hN : t.val < 256 := lt_of_lt_of_eq t.isLt N_0
  unfold blk1 iblk
  rw [View.read_apply]
  show V m c main_arg1 _ = _
  rw [V_main_arg1]
  congr 1
  funext a
  apply Fin.ext
  match a with
  | ⟨0, _⟩ => show win0_1.index t 0 * 512 + 1 * r.val = 512 * (t.val / 16 % 16) + r.val; rw [(idx1 t).1]; omega
  | ⟨1, _⟩ => show win0_1.index t 1 * 256 + 1 * d.val = d.val; rw [(idx1 t).2]; omega

/-- Window 2 at `(d, q)`: the first sample at row `512 (t%16) + q`, coordinate `d`. -/
theorem blk2_apply (c : Dev nD) (t : Fin cfg0.N) (d : Fin 256) (q : Fin 512) :
    blk2 m c t (ix2 d q) = m ((c.tc : Thread nD τ).loc main_arg0) (ix2 (tileRow (tileB t.val) q) d) := by
  have hN : t.val < 256 := lt_of_lt_of_eq t.isLt N_0
  unfold blk2 iblk
  rw [View.read_apply]
  show (V m c main_v0 : Vec F S256x8192 .f32) _ = _
  rw [V_v0]
  refine Eq.trans ?_ (Cert.Layout2.transpose_ab_ba_apply (m ((c.tc : Thread nD τ).loc main_arg0))
    transposes_S8192x256_S256x8192_1_0 d (tileRow (tileB t.val) q))
  congr 1
  funext a
  apply Fin.ext
  match a with
  | ⟨0, _⟩ => show win0_2.index t 0 * 256 + 1 * d.val = d.val; rw [(idx2 t).1]; omega
  | ⟨1, _⟩ => show win0_2.index t 1 * 512 + 1 * q.val = 512 * (t.val % 16) + q.val; rw [(idx2 t).2]; omega

/-- Window 3 at `(d, q)`: the second sample at the same place. -/
theorem blk3_apply (c : Dev nD) (t : Fin cfg0.N) (d : Fin 256) (q : Fin 512) :
    blk3 m c t (ix2 d q) = m ((c.tc : Thread nD τ).loc main_arg1) (ix2 (tileRow (tileB t.val) q) d) := by
  have hN : t.val < 256 := lt_of_lt_of_eq t.isLt N_0
  unfold blk3 iblk
  rw [View.read_apply]
  show (V m c main_v1 : Vec F S256x8192 .f32) _ = _
  rw [V_v1]
  refine Eq.trans ?_ (Cert.Layout2.transpose_ab_ba_apply (m ((c.tc : Thread nD τ).loc main_arg1))
    transposes_S8192x256_S256x8192_1_0 d (tileRow (tileB t.val) q))
  congr 1
  funext a
  apply Fin.ext
  match a with
  | ⟨0, _⟩ => show win0_3.index t 0 * 256 + 1 * d.val = d.val; rw [(idx3 t).1]; omega
  | ⟨1, _⟩ => show win0_3.index t 1 * 512 + 1 * q.val = 512 * (t.val % 16) + q.val; rw [(idx3 t).2]; omega

end Cert.KernelIdeal.Blocks

end
-- ==== Proof.Accum.lean ====
/-
  The running total, grid point by grid point. On real inputs the scratch cell after grid point `n` holds the real number
  `acc n`, the sum of the shares of tiles `0 … n` in row-major order: the first point leaves zero plus its share, every
  later point adds its share to what the point before left. By induction on the point, never by enumerating the grid.
  After the last point the output's staging cell holds the total times `2⁻²⁶`, which is the loss.
-/
import proofs.«170442_j77438260347128_1_alg».proof.Proof.Gen.KernelIdeal.Frame
import proofs.«170442_j77438260347128_1_alg».proof.Proof.Spec
import proofs.«170442_j77438260347128_1_alg».proof.Proof.Tile
import proofs.«170442_j77438260347128_1_alg».proof.Proof.Pieces
import proofs.«170442_j77438260347128_1_alg».proof.Proof.Blocks
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Tile Cert.KernelIdeal.Pieces Cert.KernelIdeal.Blocks Cert.Mmd

variable (m : (ℓ : Loc nD τ sig) → Buf (Elt Ideal) ℓ)
variable (S T : Fin 8192 → Fin 256 → ℝ) (c : Dev nD)

/-- A one-by-one array has one index. -/
theorem idx_one (j : (⟨2, ![1, 1]⟩ : Shape).Idx) : j = ix2 (0 : Fin 1) (0 : Fin 1) :=
  funext fun a => Fin.ext (by
    match a with
    | ⟨0, _⟩ => have := idx2_lt0 j; show (j 0).val = 0; omega
    | ⟨1, _⟩ => have := idx2_lt1 j; show (j 1).val = 0; omega)

/-- One grid point on real inputs: the blocks at point `t` are rows of the two samples, so the point adds tile
    `(t / 16, t % 16)`'s share to a real total. -/
theorem step_at
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal))
    (t : Fin cfg0.N) (xs : Vec Ideal S1x1 .f32) (A : ℝ) (hxs : xs (ix2 (0 : Fin 1) (0 : Fin 1)) = (A : EReal)) :
    step (blk0 m c t) (blk1 m c t) (blk2 m c t) (blk3 m c t) xs (ix2 (0 : Fin 1) (0 : Fin 1))
      = ((A + part S T (tileA t.val) (tileB t.val) : ℝ) : EReal) :=
  step_apply S T (tileA t.val) (tileB t.val) (blk0 m c t) (blk1 m c t) (blk2 m c t) (blk3 m c t) xs A
    (fun r d => (blk0_apply m c t r d).trans (hS _ _))
    (fun r d => (blk1_apply m c t r d).trans (hT _ _))
    (fun d q => (blk2_apply m c t d q).trans (hS _ _))
    (fun d q => (blk3_apply m c t d q).trans (hT _ _)) hxs

/-- The scratch cell after grid point `n` holds the running total `acc n`. -/
theorem acc_eq
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal)) :
    ∀ (n : ℕ) (hn : n < cfg0.N), (outsAt0 m c n hn).2 (ix2 (0 : Fin 1) (0 : Fin 1)) = ((acc S T n : ℝ) : EReal)
  | 0, hn => by
    have e : outsAt0 m c 0 hn = _ := outsAt0_A m c ⟨0, hn⟩ rfl (by show ¬(0 : ℕ) % 256 = 255; decide)
    rw [e]; dsimp only
    refine (congrFun (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) _ _ (blk0 m c ⟨0, hn⟩) (blk1 m c ⟨0, hn⟩) (blk2 m c ⟨0, hn⟩) (blk3 m c ⟨0, hn⟩)) (ix2 (0 : Fin 1) (0 : Fin 1))).trans ?_
    rw [acc_zero]
    exact step_at m S T c hS hT ⟨0, hn⟩ (k0_pay3 (F := Ideal)) 0 zero_apply
  | n + 1, hn => by
    have hN : cfg0.N = 256 := N_0
    have ih := acc_eq hS hT n (Nat.lt_of_succ_lt hn)
    have h0 : ¬(⟨n + 1, hn⟩ : Fin cfg0.N).val % 256 = 0 := by dsimp only; omega
    rw [acc_succ]
    by_cases h1 : (⟨n + 1, hn⟩ : Fin cfg0.N).val % 256 = 255
    · have e : outsAt0 m c (n + 1) hn = _ := outsAt0_C m c ⟨n + 1, hn⟩ h0 h1
      rw [e]; dsimp only
      refine (congrFun (sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blk0 m c ⟨n + 1, hn⟩) (blk1 m c ⟨n + 1, hn⟩) (blk2 m c ⟨n + 1, hn⟩) (blk3 m c ⟨n + 1, hn⟩) (outsAt0 m c n (Nat.lt_of_succ_lt hn)).2) (ix2 (0 : Fin 1) (0 : Fin 1))).trans ?_
      exact step_at m S T c hS hT ⟨n + 1, hn⟩ _ _ ih
    · have e : outsAt0 m c (n + 1) hn = _ := outsAt0_B m c ⟨n + 1, hn⟩ h0 h1
      rw [e]; dsimp only
      refine (congrFun (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blk0 m c ⟨n + 1, hn⟩) (blk1 m c ⟨n + 1, hn⟩) (blk2 m c ⟨n + 1, hn⟩) (blk3 m c ⟨n + 1, hn⟩) (outsAt0 m c n (Nat.lt_of_succ_lt hn)).2) (ix2 (0 : Fin 1) (0 : Fin 1))).trans ?_
      exact step_at m S T c hS hT ⟨n + 1, hn⟩ _ _ ih

/-- After the last grid point the output's staging cell holds the loss. -/
theorem out_last
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal))
    (h : 255 < cfg0.N) :
    (outsAt0 m c 255 h).1 = fun _ => ((mmd S T : ℝ) : EReal) := by
  funext j
  obtain rfl := idx_one j
  have e : outsAt0 m c 255 h = _ := outsAt0_C m c ⟨255, h⟩ (by show ¬(255 : ℕ) % 256 = 0; decide) (by show (255 : ℕ) % 256 = 255; rfl)
  rw [e]; dsimp only
  refine (congrFun (out_C c (grid0.coords ⟨255, h⟩) (ms0_0 ⟨255, h⟩) (hs0_0 ⟨255, h⟩) (ms0_1 ⟨255, h⟩) (hs0_1 ⟨255, h⟩) (ms0_2 ⟨255, h⟩) (hs0_2 ⟨255, h⟩) (ms0_3 ⟨255, h⟩) (hs0_3 ⟨255, h⟩) (ms0_4 ⟨255, h⟩) (hs0_4 ⟨255, h⟩) scM0_0 (Memref.isWhole_whole _) _ _ (blk0 m c ⟨255, h⟩) (blk1 m c ⟨255, h⟩) (blk2 m c ⟨255, h⟩) (blk3 m c ⟨255, h⟩) (outsAt0 m c 254 (Nat.lt_of_succ_lt h)).2) (ix2 (0 : Fin 1) (0 : Fin 1))).trans ?_
  rw [← acc_last S T, acc_succ S T 254]
  exact scale_apply _ _ (step_at m S T c hS hT ⟨255, h⟩ _ _ (acc_eq m S T c hS hT 254 (Nat.lt_of_succ_lt h)))

end Cert.KernelIdeal.Accum

end
-- ==== Proof.Final.lean ====
/-
  The kernel's result. The output window is a single one-by-one block written back once, after the last grid point, so
  the output array ends holding what that point left in the staging cell: the loss. The host then reshapes the
  one-by-one array to a scalar, which keeps the one entry. The two samples are never written.
-/
import proofs.«170442_j77438260347128_1_alg».proof.Proof.Gen.KernelIdeal.Frame
import proofs.«170442_j77438260347128_1_alg».proof.Proof.Spec
import proofs.«170442_j77438260347128_1_alg».proof.Proof.Accum
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MmdValue

open Cert.KernelIdeal Cert.KernelIdeal.Gen Cert.KernelIdeal.Accum Cert.Mmd

variable (m : (ℓ : Loc nD τ sig) → Buf (Elt Ideal) ℓ) (ρ : Dev nD → PrngReg)
variable (S T : Fin 8192 → Fin 256 → ℝ) (c : Dev nD)

/-- The last grid point. -/
abbrev tLast : Fin cfg0.N := ⟨255, by rw [show cfg0.N = 256 from N_0]; decide⟩

/-- The output array's final contents: its one entry is the loss. -/
abbrev result : Buf (Elt Ideal) ((c : Thread nD τ).loc main_v2) := fun _ => ((mmd S T : ℝ) : EReal)

/-- The one write-back, after the last point, writes the loss: the block is the whole one-by-one array. -/
theorem flushed_eq
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal))
    (t : Fin cfg0.N) (hf : (cfg0.win 4).flush t = true) :
    (dats m 0 c).flushed 4 t = ((cfg0.win 4).blk t).view.read (Elt Ideal) (result S T c) := by
  have hN : cfg0.N = 256 := N_0
  have h255 : t.val = 255 := by have := (flush0_4 t).mp hf; have := t.isLt; omega
  obtain rfl : t = tLast := Fin.ext h255
  show (cfg0.win 4).cut (grid0.coords tLast) ((dats m 0 c).after 4 tLast) = _
  rw [after0_4, out_last m S T c hS hT]
  have hz' : (fun a => win0_4.index tLast a * main_v2.ty.shape.size a) = fun _ => 0 := funext fun a => by fin_cases a <;> decide +kernel
  exact (Memref.read_access_unit_zero (Elt Ideal) main_v2 hz' (fun a => by rw [congrFun hz' a]; simp) (result S T c)).symm

/-- So the output array ends holding the loss: the last point's block covers it. -/
theorem final_o
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal)) :
    (dats m 0 c).arrAt 4 cfg0.N = result S T c :=
  (dats m 0 c).arrAt_eq_of_cover 4 (result S T c) (flushed_eq m S T c hS hT) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The host's reshape of the one-by-one output to a scalar keeps its one entry. -/
theorem tail_eq
    (hS : ∀ (i : Fin 8192) (d : Fin 256), m ((c.tc : Thread nD τ).loc main_arg0) (ix2 i d) = ((S i d : ℝ) : EReal))
    (hT : ∀ (i : Fin 8192) (d : Fin 256), m ((c.tc : Thread nD τ).loc main_arg1) (ix2 i d) = ((T i d : ℝ) : EReal)) :
    Pipeline.afterTail₀ cfgs (dats m) 0 (V0 m) [hostOps1] c main_v3 = fun _ => ((mmd S T : ℝ) : EReal) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result S T c :=
    (Pipeline.withArrays_arr spec0 launch0.win.arr_inj c _ _ 4).trans (final_o m S T c hS hT)
  funext i
  refine (congrFun (congrArg (fun v => shapeCast main_v3.ty.shape v shapeCasts_S1x1_S_) e) i).trans ?_
  rfl

/-- The kernel's run on real inputs: every weakly fair execution terminates with the result at the loss and the two
    samples unchanged. -/
theorem run (S T : Dev nD → Fin 8192 → Fin 256 → ℝ)
    (hS : ∀ (c : Dev nD) (i : Fin 8192) (d : Fin 256), m ((c.tc : Thread nD τ).loc main_arg0) (ix2 i d) = ((S c i d : ℝ) : EReal))
    (hT : ∀ (c : Dev nD) (i : Fin 8192) (d : Fin 256), m ((c.tc : Thread nD τ).loc main_arg1) (ix2 i d) = ((T c i d : ℝ) : EReal)) :
    θ_run defs (onTc (τ := τ) (main (F := Ideal))) ⟨m, fun _ => 0, ρ⟩ (fun r => ∀ c : Dev nD,
      r.2.mem ((c.tc : Thread nD τ).loc main_v3) = (fun _ => ((mmd (S c) (T c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (by decide)).trans (tail_eq m (S c) (T c) c (hS c) (hT c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.MmdValue

end
-- ==== Proof.lean ====
/-
  The maximum-mean-discrepancy loss with a Gaussian kernel, computed tile by tile, equals its plain definition.

  Both programs take two samples of 8192 points in dimension 256. The reference forms the three 8192 × 8192 Gaussian
  kernel matrices `exp (-(|x|² + |y|² - 2 x·y) / 2)` whole and returns the mean of `k_ss + k_tt - 2 k_st`. The kernel walks
  a 16 × 16 grid of 512 × 512 tiles in row-major order; at each tile it forms the three kernel tiles from row blocks of the
  samples and of their transposes, sums each, combines the three sums, and adds the result to a one-entry running total
  that it resets at the first tile; after the last tile it writes the total times `2⁻²⁶`.

  Under the precondition every input entry is a real number, hence so is every intermediate value of either program
  (the exact exponential of a real is real). The kernel's product with `½` is the reference's quotient by `2`, its
  `0 - z` the reference's negation, its product with `2⁻²⁶` the reference's quotient by `2²⁶`; and a finite sum of reals may
  be cut into tiles, split over `k_ss + k_tt - 2 k_st`, and added up in any order. So both results are the same real.

  The three runs terminate without a fault and leave the samples unchanged; the idealization rewrote nothing.
-/
import proofs.«170442_j77438260347128_1_alg».proof.Defs
import proofs.«170442_j77438260347128_1_alg».proof.Proof.Gen.Kernel
import proofs.«170442_j77438260347128_1_alg».proof.Proof.Gen.Kernel.Skeleton
import proofs.«170442_j77438260347128_1_alg».proof.Proof.Gen.Kernel.Launch
import proofs.«170442_j77438260347128_1_alg».proof.Proof.Gen.Kernel.Points
import proofs.«170442_j77438260347128_1_alg».proof.Proof.Gen.Kernel.Frame
import proofs.«170442_j77438260347128_1_alg».proof.Proof.Gen.KernelIdeal
import proofs.«170442_j77438260347128_1_alg».proof.Proof.Gen.KernelIdeal.Skeleton
import proofs.«170442_j77438260347128_1_alg».proof.Proof.Gen.KernelIdeal.Launch
import proofs.«170442_j77438260347128_1_alg».proof.Proof.Gen.KernelIdeal.Points
import proofs.«170442_j77438260347128_1_alg».proof.Proof.Gen.KernelIdeal.Frame
import proofs.«170442_j77438260347128_1_alg».proof.Proof.Gen.ReferenceIdeal
import proofs.«170442_j77438260347128_1_alg».proof.Proof.Gen.ReferenceIdeal.Run
import proofs.«170442_j77438260347128_1_alg».proof.Proof.Gen.ReferenceIdeal.Read
import proofs.«170442_j77438260347128_1_alg».proof.Proof.Gen.Pre_finite_inputs
import proofs.«170442_j77438260347128_1_alg».proof.Proof.Finite
import proofs.«170442_j77438260347128_1_alg».proof.Proof.Ref
import proofs.«170442_j77438260347128_1_alg».proof.Proof.Final
import Idealize.ShloMosaic.Adequacy
import Idealize.ShloMosaic.Init

noncomputable section

namespace Cert.Proof

open Idealize.ShloMosaic Idealize.SL.Sem

/-- The kernel as printed runs, faults nowhere, and leaves the samples unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs and writes only its own results. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On real inputs the kernel ends at the loss (the running total over the tiles, scaled) and the reference at the loss
    (the mean over all pairs): one real number. -/
theorem algebraic : Cert.algebraic_KernelIdeal_ReferenceIdeal := by
  intro m ρ m' ρ' hpre hagree
  have hreal := fun c => Cert.Mmd.real_of_pre _ _ (hpre c)
  choose S T hS hT using hreal
  refine ⟨fun c => fun _ => ((Cert.Mmd.mmd (S c) (T c) : ℝ) : EReal), Cert.KernelIdeal.MmdValue.run m ρ S T hS hT, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq]
  exact Cert.ReferenceIdeal.MmdRef.value _ _ (S c) (T c)
    (fun i d => by rw [(hagree c).1]; exact hS c i d) (fun i d => by rw [(hagree c).2]; exact hT c i d)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
